-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x4 : Shape := ⟨3, ![512, 512, 4]⟩
abbrev S8388608x2 : Shape := ⟨2, ![8388608, 2]⟩
abbrev S_ : Shape := ⟨0, ![]⟩

class Facts : Prop where
  bcast_S_S512x512x4 : S_.BroadcastsInDim S512x512x4 (![] : Fin 0 → Fin S512x512x4.rank)
  reducesTo_S512x512x4_S_d0_1_2 : S512x512x4.ReducesTo [0, 1, 2] S_
  h_S_ : 0 < S_.numel
  bcast_S_S8388608x2 : S_.BroadcastsInDim S8388608x2 (![] : Fin 0 → Fin S8388608x2.rank)
  reducesTo_S8388608x2_S_d0_1 : S8388608x2.ReducesTo [0, 1] S_

variable [Facts]

def fn {F : FTy → Type} [FloatOps F] (main_arg0 : FVec F S512x512x4 .f32) (main_arg1 : FVec F S8388608x2 .f32) : IVec S_ 1 :=
  let main_v0 : FVec F S512x512x4 .f32 := Host.absf main_arg0
  let main_cst : FVec F S_ .f32 := constant S_ .f32 0x7F800000#32
  let main_v1 : FVec F S512x512x4 .f32 := broadcastInDim S512x512x4 ![] bcast_S_S512x512x4 main_cst
  let main_v2 : IVec S512x512x4 1 := cmpf .olt main_v0 main_v1
  let main_c : IVec S_ 1 := constantI S_ 1 1#1
  let main_v3 : IVec S_ 1 := (fun x v => Host.reduce IntOp.andi x v reducesTo_S512x512x4_S_d0_1_2 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  main_v8
-- ==== Kernel.lean ====
abbrev S512x512x4 : Shape := ⟨3, ![512, 512, 4]⟩
abbrev S8388608x2 : Shape := ⟨2, ![8388608, 2]⟩
abbrev S4x512x512 : Shape := ⟨3, ![4, 512, 512]⟩
abbrev S8388608x4 : Shape := ⟨2, ![8388608, 4]⟩
abbrev S2048x2 : Shape := ⟨2, ![2048, 2]⟩
abbrev S2048x4 : Shape := ⟨2, ![2048, 4]⟩
abbrev S2048x1 : Shape := ⟨2, ![2048, 1]⟩
abbrev S2048 : Shape := ⟨1, ![2048]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x512x4, .f32⟩
  | .hbm, ⟨1, _⟩ => ⟨S8388608x2, .f32⟩
  | .hbm, ⟨2, _⟩ => ⟨S4x512x512, .f32⟩
  | .hbm, ⟨3, _⟩ => ⟨S4x512x512, .bf16⟩
  | .hbm, ⟨4, _⟩ => ⟨S8388608x4, .f32⟩
  | .local _ .vmem, ⟨0, _⟩ => ⟨S4x512x512, .bf16⟩
  | .local _ .vmem, ⟨1, _⟩ => ⟨S2048x2, .f32⟩
  | .local _ .vmem, ⟨2, _⟩ => ⟨S2048x2, .f32⟩
  | .local _ .vmem, ⟨3, _⟩ => ⟨S2048x4, .f32⟩
  | .local _ .vmem, ⟨4, _⟩ => ⟨S2048x4, .f32⟩
  | _, _ => ⟨S512x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512x4_S4x512x512_2_0_1 : S512x512x4.Transposes [2, 0, 1] S4x512x512
  bitsLt_bf16_f32 : FTy.bits .bf16 < FTy.bits .f32
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  shapeCasts_S2048x1_S2048 : S2048x1.ShapeCasts S2048
  slices_S2048x2_o0_1_S2048x1 : S2048x2.Slices ![0, 1] S2048x1
  shapeCasts_S2048_S2048x1 : S2048.ShapeCasts S2048x1
  iota_S2048x512_d1_w32 : S2048x512.Iotas .tc 32 [1]
  broadcasts_S2048x1_S2048x512 : S2048x1.Broadcasts S2048x512
  shapeCasts_S2048x1_S2048x1 : S2048x1.ShapeCasts S2048x1
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  reduces_S2048x512_S2048 : S2048x512.Reduces [1] S2048
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  concatenates_S2048x1_S2048x1_S2048x1_S2048x1_S2048x4_d1 : Shape.Concatenates [S2048x1, S2048x1, S2048x1, S2048x1] S2048x4 1
  inb_S2048x4_S2048x4_0_0 : ∀ a, (![0, 0] : Fin 2 → Nat) a + S2048x4.size a ≤ S2048x4.size a
  h_S2048x4 : 0 < S2048x4.numel
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x512x512.size a
  hwx0_0 : ∀ i : grid0.Coords, EltTy.bits .bf16 = 32 ∨ (Rect.block (s := S4x512x512) S4x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S8388608x2.size a
  hwx0_1 : ∀ i : grid0.Coords, EltTy.bits .f32 = 32 ∨ (Rect.block (s := S8388608x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S8388608x4.size a
  hwx0_2 : ∀ i : grid0.Coords, EltTy.bits .f32 = 32 ∨ (Rect.block (s := S8388608x4) S2048x4.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v1) S4x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512x4 : Shape := ⟨3, ![512, 512, 4]⟩
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩
abbrev S8388608x4 : Shape := ⟨2, ![8388608, 4]⟩

abbrev nBuf : Space → Nat
  | .hbm => 141
  | .vmem => 0
  | .smem => 0
  | _ => 0

abbrev hbmTy0_0 (i : Nat) : BufTy := match i % 128 with
  | 0 => ⟨S512x512x4, .f32⟩
  | 1 => ⟨S8388608x2, .f32⟩
  | 2 => ⟨S8388608x1, .f32⟩
  | 3 => ⟨S8388608, .f32⟩
  | 4 => ⟨S8388608x1, .f32⟩
  | 5 => ⟨S8388608, .f32⟩
  | 6 => ⟨S8388608, .f32⟩
  | 7 => ⟨S_, .i32⟩
  | 8 => ⟨S_, .i32⟩
  | 9 => ⟨S_, .f32⟩
  | 10 => ⟨S8388608, .f32⟩
  | 11 => ⟨S8388608, .f32⟩
  | 12 => ⟨S_, .f32⟩
  | 13 => ⟨S8388608, .f32⟩
  | 14 => ⟨S8388608, .f32⟩
  | 15 => ⟨S8388608, .i32⟩
  | 16 => ⟨S8388608, .f32⟩
  | 17 => ⟨S_, .i32⟩
  | 18 => ⟨S_, .i32⟩
  | 19 => ⟨S_, .f32⟩
  | 20 => ⟨S8388608, .f32⟩
  | 21 => ⟨S8388608, .f32⟩
  | 22 => ⟨S_, .f32⟩
  | 23 => ⟨S8388608, .f32⟩
  | 24 => ⟨S8388608, .f32⟩
  | 25 => ⟨S8388608, .i32⟩
  | 26 => ⟨S_, .i32⟩
  | 27 => ⟨S8388608, .i32⟩
  | 28 => ⟨S8388608, .i32⟩
  | 29 => ⟨S_, .i32⟩
  | 30 => ⟨S8388608, .i32⟩
  | 31 => ⟨S8388608, .i32⟩
  | 32 => ⟨S8388608, .f32⟩
  | 33 => ⟨S8388608, .f32⟩
  | 34 => ⟨S8388608x1, .f32⟩
  | 35 => ⟨S8388608, .f32⟩
  | 36 => ⟨S8388608, .f32⟩
  | 37 => ⟨S8388608x1, .f32⟩
  | 38 => ⟨S_, .i32⟩
  | 39 => ⟨S8388608, .i32⟩
  | 40 => ⟨S8388608, .i1⟩
  | 41 => ⟨S_, .i32⟩
  | 42 => ⟨S8388608, .i32⟩
  | 43 => ⟨S8388608, .i32⟩
  | 44 => ⟨S8388608, .i32⟩
  | 45 => ⟨S_, .i32⟩
  | 46 => ⟨S8388608, .i32⟩
  | 47 => ⟨S8388608, .i1⟩
  | 48 => ⟨S_, .i32⟩
  | 49 => ⟨S8388608, .i32⟩
  | 50 => ⟨S8388608, .i32⟩
  | 51 => ⟨S8388608, .i32⟩
  | 52 => ⟨S8388608x1, .i32⟩
  | 53 => ⟨S8388608x1, .i32⟩
  | 54 => ⟨S8388608x2, .i32⟩
  | 55 => ⟨S8388608x4, .f32⟩
  | 56 => ⟨S_, .i32⟩
  | 57 => ⟨S8388608, .i32⟩
  | 58 => ⟨S8388608, .i1⟩
  | 59 => ⟨S_, .i32⟩
  | 60 => ⟨S8388608, .i32⟩
  | 61 => ⟨S8388608, .i32⟩
  | 62 => ⟨S8388608, .i32⟩
  | 63 => ⟨S_, .i32⟩
  | 64 => ⟨S8388608, .i32⟩
  | 65 => ⟨S8388608, .i1⟩
  | 66 => ⟨S_, .i32⟩
  | 67 => ⟨S8388608, .i32⟩
  | 68 => ⟨S8388608, .i32⟩
  | 69 => ⟨S8388608, .i32⟩
  | 70 => ⟨S8388608x1, .i32⟩
  | 71 => ⟨S8388608x1, .i32⟩
  | 72 => ⟨S8388608x2, .i32⟩
  | 73 => ⟨S8388608x4, .f32⟩
  | 74 => ⟨S_, .i32⟩
  | 75 => ⟨S8388608, .i32⟩
  | 76 => ⟨S8388608, .i1⟩
  | 77 => ⟨S_, .i32⟩
  | 78 => ⟨S8388608, .i32⟩
  | 79 => ⟨S8388608, .i32⟩
  | 80 => ⟨S8388608, .i32⟩
  | 81 => ⟨S_, .i32⟩
  | 82 => ⟨S8388608, .i32⟩
  | 83 => ⟨S8388608, .i1⟩
  | 84 => ⟨S_, .i32⟩
  | 85 => ⟨S8388608, .i32⟩
  | 86 => ⟨S8388608, .i32⟩
  | 87 => ⟨S8388608, .i32⟩
  | 88 => ⟨S8388608x1, .i32⟩
  | 89 => ⟨S8388608x1, .i32⟩
  | 90 => ⟨S8388608x2, .i32⟩
  | 91 => ⟨S8388608x4, .f32⟩
  | 92 => ⟨S_, .i32⟩
  | 93 => ⟨S8388608, .i32⟩
  | 94 => ⟨S8388608, .i1⟩
  | 95 => ⟨S_, .i32⟩
  | 96 => ⟨S8388608, .i32⟩
  | 97 => ⟨S8388608, .i32⟩
  | 98 => ⟨S8388608, .i32⟩
  | 99 => ⟨S_, .i32⟩
  | 100 => ⟨S8388608, .i32⟩
  | 101 => ⟨S8388608, .i1⟩
  | 102 => ⟨S_, .i32⟩
  | 103 => ⟨S8388608, .i32⟩
  | 104 => ⟨S8388608, .i32⟩
  | 105 => ⟨S8388608, .i32⟩
  | 106 => ⟨S8388608x1, .i32⟩
  | 107 => ⟨S8388608x1, .i32⟩
  | 108 => ⟨S8388608x2, .i32⟩
  | 109 => ⟨S8388608x4, .f32⟩
  | 110 => ⟨S_, .f32⟩
  | 111 => ⟨S8388608x1, .f32⟩
  | 112 => ⟨S8388608x1, .f32⟩
  | 113 => ⟨S8388608x4, .f32⟩
  | 114 => ⟨S8388608x4, .f32⟩
  | 115 => ⟨S_, .f32⟩
  | 116 => ⟨S8388608x1, .f32⟩
  | 117 => ⟨S8388608x1, .f32⟩
  | 118 => ⟨S8388608x4, .f32⟩
  | 119 => ⟨S8388608x4, .f32⟩
  | 120 => ⟨S_, .f32⟩
  | 121 => ⟨S8388608x1, .f32⟩
  | 122 => ⟨S8388608x1, .f32⟩
  | 123 => ⟨S8388608x4, .f32⟩
  | 124 => ⟨S8388608x4, .f32⟩
  | 125 => ⟨S8388608x4, .f32⟩
  | 126 => ⟨S8388608x4, .f32⟩
  | 127 => ⟨S8388608x4, .f32⟩
  | _ => ⟨S512x512x4, .f32⟩

abbrev hbmTy0_1 (i : Nat) : BufTy := match i % 128 with
  | 0 => ⟨S8388608x4, .f32⟩
  | 1 => ⟨S8388608x4, .f32⟩
  | 2 => ⟨S_, .f32⟩
  | 3 => ⟨S8388608x1, .f32⟩
  | 4 => ⟨S8388608x1, .f32⟩
  | 5 => ⟨S8388608x4, .f32⟩
  | 6 => ⟨S8388608x4, .f32⟩
  | 7 => ⟨S8388608x4, .f32⟩
  | 8 => ⟨S8388608x4, .f32⟩
  | 9 => ⟨S8388608x4, .f32⟩
  | 10 => ⟨S8388608x4, .f32⟩
  | 11 => ⟨S8388608x4, .f32⟩
  | 12 => ⟨S8388608x4, .f32⟩
  | _ => ⟨S512x512x4, .f32⟩

abbrev hbmTy (i : Nat) : BufTy := match i / 128 with
  | 0 => hbmTy0_0 i
  | 1 => hbmTy0_1 i
  | _ => ⟨S512x512x4, .f32⟩

abbrev bufTy : (tb : Table) → Fin (tcTables nBuf tb) → BufTy
  | .hbm, ⟨i, _⟩ => hbmTy i
  | _, _ => ⟨S512x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_c_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_17 : Ref sig .tc := ⟨.hbm, 92, rfl⟩
abbrev main_v62 : Ref sig .tc := ⟨.hbm, 93, rfl⟩
abbrev main_v63 : Ref sig .tc := ⟨.hbm, 94, rfl⟩
abbrev main_c_18 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_c_20 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_21 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_22 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S_S8388608x1 : S_.BroadcastsInDim S8388608x1 (![] : Fin 0 → Fin S8388608x1.rank)
  bcast_S8388608x1_S8388608x4_0_1 : S8388608x1.BroadcastsInDim S8388608x4 (![0, 1] : Fin 2 → Fin S8388608x4.rank)
  gather_S512x512x4_S8388608x2_S8388608x4_1_01_n_n_01_1_114_wf : GatherDims.WF S512x512x4 S8388608x2 S8388608x4 [1] [0, 1] [] [0, 1] [] 1 ![1, 1, 4]

variable [Facts₀]

def gather_S512x512x4_S8388608x2_S8388608x4_1_01_n_n_01_1_114 : GatherDims S512x512x4 S8388608x2 S8388608x4 where
  offsetDims := [1]
  collapsedSliceDims := [0, 1]
  operandBatchingDims := []
  startIndicesBatchingDims := []
  startIndexMap := [0, 1]
  indexVectorDim := 1
  sliceSizes := ![1, 1, 4]
  wf := gather_S512x512x4_S8388608x2_S8388608x4_1_01_n_n_01_1_114_wf

class Facts : Prop extends Facts₀ where

variable [Facts]
-- ==== Proof.Spec.lean ====
/-
  The specification both programs are compared against: bilinear interpolation of a 512 × 512 grid of
  4-vectors at points given in grid coordinates.

  For a coordinate `x` the cell is `⌊x⌋` clamped to `[0, 510]` (`cellN`; an infinite coordinate goes to the
  corresponding end, so the cell is in range for EVERY extended real), and the weight of the upper neighbour is
  `frac x = x − cell`. The interpolated value is the four-corner sum `bilin`. The same number written as a
  double sum against two weight rows, each with at most two non-zero entries (`wrow`), is `kform`; the two
  agree when the coordinates and the grid values are finite (`kform_eq_bilin`: distributivity, which the
  extended reals have only away from the infinities).
-/
import Idealize.ShloMosaic.PureOps.Ideal
import Idealize.ShloMosaic.Lib.ValueIdx

noncomputable section

namespace Cert.Bilinear

open Idealize.ShloMosaic Idealize.ShloMosaic.ValueIdx

/-- The grid cell of a coordinate: `⌊x⌋` clamped to `[0, 510]`, the infinities at the ends. -/
def cellN : EReal → ℕ
  | ⊥ => 0
  | ⊤ => 510
  | (r : ℝ) => (min 510 (max 0 ⌊r⌋)).toNat

theorem cellN_bot : cellN ⊥ = 0 := rfl
theorem cellN_top : cellN ⊤ = 510 := rfl
theorem cellN_coe (r : ℝ) : cellN (r : EReal) = (min 510 (max 0 ⌊r⌋)).toNat := rfl

theorem cellN_le (x : EReal) : cellN x ≤ 510 := by
  induction x using EReal.rec with
  | bot => rw [cellN_bot]; omega
  | top => rw [cellN_top]
  | coe r => rw [cellN_coe]; omega

/-- The cell and its upper neighbour as positions on a grid axis. -/
def cellF (x : EReal) : Fin 512 := ⟨cellN x, by have := cellN_le x; omega⟩
def cellS (x : EReal) : Fin 512 := ⟨cellN x + 1, by have := cellN_le x; omega⟩

theorem cellF_ne_cellS (x : EReal) : cellF x ≠ cellS x := by
  intro h; have := congrArg Fin.val h; simp only [cellF, cellS] at this; omega

/-- The weight of the upper neighbour. -/
def frac (x : EReal) : EReal := x - ((cellN x : ℝ) : EReal)

/-- Bilinear interpolation from the four corners of the cell, summed in the order
    `((u₀₀·(1−fx))·(1−fy) + (u₀₁·(1−fx))·fy) + (u₁₀·fx)·(1−fy)) + (u₁₁·fx)·fy`. -/
def bilin (u : Fin 512 → Fin 512 → EReal) (x y : EReal) : EReal :=
  u (cellF x) (cellF y) * (1 - frac x) * (1 - frac y) + u (cellF x) (cellS y) * (1 - frac x) * frac y
    + u (cellS x) (cellF y) * frac x * (1 - frac y) + u (cellS x) (cellS y) * frac x * frac y

/-- The interpolation weights of a coordinate along an axis: `1 − frac` at the cell, `frac` at its upper
    neighbour, zero elsewhere. -/
def wrow (x : EReal) (h : Fin 512) : EReal :=
  if h = cellF x then 1 - frac x else if h = cellS x then frac x else 0

/-- The same interpolation as a double sum: the grid contracted with the row weights along the first axis,
    the result multiplied by the column weights and summed along the second. -/
def kform (u : Fin 512 → Fin 512 → EReal) (x y : EReal) : EReal :=
  ∑ w : Fin 512, (∑ h : Fin 512, wrow x h * u h w) * wrow y w

/-- The interpolated array from the grid laid out [row, column, feature]. -/
def Gat (g : (⟨3, ![512, 512, 4]⟩ : Shape).Idx → EReal) (loc : (⟨2, ![8388608, 2]⟩ : Shape).Idx → EReal)
    (n : Fin 8388608) (f : Fin 4) : EReal :=
  bilin (fun a b => g (ix3 a b f)) (loc (ix2 n (0 : Fin 2))) (loc (ix2 n (1 : Fin 2)))

def G (g : (⟨3, ![512, 512, 4]⟩ : Shape).Idx → EReal) (loc : (⟨2, ![8388608, 2]⟩ : Shape).Idx → EReal) :
    (⟨2, ![8388608, 4]⟩ : Shape).Idx → EReal :=
  fun i => Gat g loc (i 0) (i 1)

/-- The double-sum form from the grid laid out [feature, row, column]. -/
def Kat (gt : (⟨3, ![4, 512, 512]⟩ : Shape).Idx → EReal) (loc : (⟨2, ![8388608, 2]⟩ : Shape).Idx → EReal)
    (n : Fin 8388608) (f : Fin 4) : EReal :=
  kform (fun a b => gt (ix3 f a b)) (loc (ix2 n (0 : Fin 2))) (loc (ix2 n (1 : Fin 2)))

end Cert.Bilinear

end
-- ==== Proof.Laws.lean ====
/-
  The laws of the interpolation specification: the clamped floor as the programs' 32-bit word, and the double
  sum against the two-entry weight rows as the four-corner sum for finite data.
-/
import proofs.«108483_j72816875536993_1_alg».proof.Proof.Spec

noncomputable section

namespace Cert.Bilinear

open Idealize.ShloMosaic Idealize.ShloMosaic.ValueIdx

/-- The inclusion of the reals in the extended reals commutes with maximum and minimum. -/
theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- An integer in `[0, 510]`, as a real, converts to the 32-bit word of that number. -/
theorem fptosi_int (k : ℤ) (h0 : 0 ≤ k) (h1 : k ≤ 510) :
    Ideal.fptosi 32 (((k : ℝ)) : EReal) = BitVec.ofNat 32 k.toNat := by
  rw [Ideal.fptosi, Ideal.toIntClamped_coe, if_pos (by exact_mod_cast h0), Int.floor_intCast]
  have hk : max (-((2 ^ (32 - 1) : ℕ) : ℤ)) (min (((2 ^ (32 - 1) : ℕ) : ℤ) - 1) k) = k := by
    norm_num
    omega
  rw [hk]
  obtain ⟨n, rfl⟩ := Int.eq_ofNat_of_zero_le h0
  simp

/-- The clamped floor as the 32-bit word the programs compute: floor, maximum with 0, minimum with 510, then
    the conversion to a signed integer (which truncates, and clamps what is out of range). -/
theorem cell_word (x : EReal) :
    Ideal.fptosi 32 (min (((510 : ℝ) : EReal)) (max (0 : EReal) (Ideal.liftRound Int.floor x))) = BitVec.ofNat 32 (cellN x) := by
  induction x using EReal.rec with
  | bot =>
    have h : min (((510 : ℝ) : EReal)) (max (0 : EReal) (Ideal.liftRound Int.floor ⊥)) = (((0 : ℤ) : ℝ) : EReal) := by
      rw [Ideal.liftRound_bot, max_eq_left bot_le, ← EReal.coe_zero, ← coe_min]
      norm_num
    rw [h, fptosi_int 0 (le_refl _) (by norm_num), cellN_bot]
    rfl
  | top =>
    have h : min (((510 : ℝ) : EReal)) (max (0 : EReal) (Ideal.liftRound Int.floor ⊤)) = (((510 : ℤ) : ℝ) : EReal) := by
      rw [Ideal.liftRound_top, max_eq_right le_top, min_eq_left le_top]
      norm_num
    rw [h, fptosi_int 510 (by norm_num) (le_refl _), cellN_top]
    rfl
  | coe r =>
    have h : min (((510 : ℝ) : EReal)) (max (0 : EReal) (Ideal.liftRound Int.floor (r : EReal)))
        = (((min 510 (max 0 ⌊r⌋) : ℤ) : ℝ) : EReal) := by
      rw [Ideal.liftRound_coe, ← EReal.coe_zero, ← coe_max, ← coe_min]
      push_cast
      rfl
    rw [h, fptosi_int _ (by omega) (by omega), cellN_coe]

/-- The word read back as a signed integer is the cell. -/
theorem cell_toInt (x : EReal) : (BitVec.ofNat 32 (cellN x)).toInt = (cellN x : ℤ) := by
  have h := cellN_le x
  rw [BitVec.toInt_ofNat']
  simp only [Int.bmod]
  omega

/-- A sum against a weight row keeps the two entries at the cell and at its upper neighbour. -/
theorem sum_wrow (x : EReal) (v : Fin 512 → EReal) :
    ∑ h : Fin 512, wrow x h * v h = (1 - frac x) * v (cellF x) + frac x * v (cellS x) := by
  rw [Finset.sum_eq_add (cellF x) (cellS x) (cellF_ne_cellS x)]
  · rw [wrow, if_pos rfl, wrow, if_neg (cellF_ne_cellS x).symm, if_pos rfl]
  · intro c _ hc
    rw [wrow, if_neg hc.1, if_neg hc.2, zero_mul]
  · intro h
    exact absurd (Finset.mem_univ _) h
  · intro h
    exact absurd (Finset.mem_univ _) h

/-- With finite coordinates and finite grid values the double sum is the four-corner sum. -/
theorem kform_eq_bilin (u : Fin 512 → Fin 512 → EReal) (x y : EReal)
    (hx : ∃ r : ℝ, x = r) (hy : ∃ r : ℝ, y = r) (hu : ∀ a b, ∃ r : ℝ, u a b = r) :
    kform u x y = bilin u x y := by
  have hk : kform u x y = ∑ w : Fin 512, wrow y w * (∑ h : Fin 512, wrow x h * u h w) := by
    rw [kform]
    exact Finset.sum_congr rfl (fun w _ => mul_comm _ _)
  rw [hk, sum_wrow y, sum_wrow x, sum_wrow x, bilin]
  obtain ⟨a, rfl⟩ := hx
  obtain ⟨b, rfl⟩ := hy
  obtain ⟨u00, h00⟩ := hu (cellF (a : EReal)) (cellF (b : EReal))
  obtain ⟨u01, h01⟩ := hu (cellF (a : EReal)) (cellS (b : EReal))
  obtain ⟨u10, h10⟩ := hu (cellS (a : EReal)) (cellF (b : EReal))
  obtain ⟨u11, h11⟩ := hu (cellS (a : EReal)) (cellS (b : EReal))
  have hfa : frac (a : EReal) = ((a - (cellN (a : EReal) : ℝ) : ℝ) : EReal) := by
    rw [frac, EReal.coe_sub]
  have hfb : frac (b : EReal) = ((b - (cellN (b : EReal) : ℝ) : ℝ) : EReal) := by
    rw [frac, EReal.coe_sub]
  rw [h00, h01, h10, h11, hfa, hfb, ← EReal.coe_one]
  simp only [← EReal.coe_sub, ← EReal.coe_mul, ← EReal.coe_add]
  congr 1
  ring

end Cert.Bilinear

end
-- ==== Proof.Finite.lean ====
/-
  The precondition read at an entry: when `finite_inputs` holds of the two argument arrays, every entry of
  each is a real number.
-/
import proofs.«108483_j72816875536993_1_alg».proof.Proof.Gen.Pre_finite_inputs
import Idealize.ShloMosaic.PureOps.Ideal
import Idealize.ShloMosaic.Lib.ReduceAll

noncomputable section

namespace Cert.Bilinear.Finite

open Idealize.ShloMosaic Cert.Pre_finite_inputs

/-- A rank-0 array has a single index. -/
instance : Subsingleton S_.Idx := ⟨fun a b => funext fun d => d.elim0⟩

/-- The bit pattern of the positive infinity. -/
theorem inf_bits : Ideal.ofBits .f32 0x7F800000#32 = (⊤ : EReal) := by
  simp [Ideal.ofBits, Ideal.ieee]

/-- An extended real whose absolute value is below the infinity is a real. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem finite_of_pre (g : FVec Ideal S512x512x4 .f32) (loc : FVec Ideal S8388608x2 .f32)
    (h : Cert.Pre_finite_inputs.fn (F := Ideal) g loc = fun _ => 1#1) :
    (∀ i, ∃ r : ℝ, g i = (r : EReal)) ∧ (∀ i, ∃ r : ℝ, loc i = (r : EReal)) := by
  have h0 := congrFun h (fun a => a.elim0)
  dsimp only [Cert.Pre_finite_inputs.fn] at h0
  obtain ⟨hg, hl⟩ := IntOp.andi_eq_one.1 h0
  refine ⟨fun i => ?_, fun i => ?_⟩
  · have hi := Host.reduce_andi_all _ _ _ _ _ hg i
    have hi' : Ideal.cmp .olt (max (g i) (-(g i))) (Ideal.ofBits .f32 0x7F800000#32) = 1#1 := hi
    rw [inf_bits] at hi'
    exact real_of_abs_lt _ hi'
  · have hi := Host.reduce_andi_all _ _ _ _ _ hl i
    have hi' : Ideal.cmp .olt (max (loc i) (-(loc i))) (Ideal.ofBits .f32 0x7F800000#32) = 1#1 := hi
    rw [inf_bits] at hi'
    exact real_of_abs_lt _ hi'

end Cert.Bilinear.Finite

end
-- ==== Proof.KernelPoint.lean ====
/-
  The kernel body's result at one point of its block: row `r` of the location block and feature `f` of the
  grid block give the double sum of the specification (`Cert.Bilinear.kform`) over plane `f` of the grid block,
  at the two coordinates in row `r`.

  The body computes, for each coordinate, the cell word (the clamped floor as a 32-bit integer) and the
  fraction (the coordinate less the word read back); a weight row is the nested select on "lane = cell" and
  "lane = cell + 1" of `1 − fraction`, `fraction` and `0`, which is `Cert.Bilinear.wrow`. Each feature's column
  is the plane contracted with the row weights along its first axis, multiplied by the column weights and summed
  along the lanes; the four columns are laid side by side.
-/
import proofs.«108483_j72816875536993_1_alg».proof.Proof.Gen.KernelIdeal.Frame
import proofs.«108483_j72816875536993_1_alg».proof.Proof.Laws
import Idealize.ShloMosaic.Lib.ValueIdx
import Idealize.ShloMosaic.Lib.Pipeline.Value
import Idealize.ShloMosaic.Lib.StableHlo.Predicate
import Idealize.ShloMosaic.PureOps.Ideal.Laws

noncomputable section

namespace Cert.KernelIdeal.Point

open Cert.KernelIdeal Cert.KernelIdeal.Gen Idealize.ShloMosaic Idealize.ShloMosaic.ValueIdx
open Cert.Bilinear

/-! ## Constants -/
theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul]; norm_num
theorem ofBits_510 : Ideal.ofBits .f32 0x43FF0000#32 = ((510 : ℝ) : EReal) := by
  simp [Ideal.ofBits, Ideal.ieee, -EReal.coe_mul]; norm_num

/-! ## Pointwise operations at an index (definitional) -/
section
variable {s : Shape} {φ : FTy} {w : Nat}
theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem fptosi_apply (a : FVec Ideal s φ) (i : s.Idx) : fptosi w a i = Ideal.fptosi w (a i) := rfl
theorem floor_apply (a : FVec Ideal s φ) (i : s.Idx) : floor a i = Ideal.liftRound Int.floor (a i) := rfl
theorem sitofp_apply' (a : IVec s w) (i : s.Idx) : (sitofp φ a : FVec Ideal s φ) i = (((a i).toInt : ℝ) : EReal) := rfl
end

/-! ## Layout operations at an index -/

/-- Column 0 of the location block as a vector. -/
theorem col0_apply (v0 : Vec Ideal S2048x2 .f32) (p : Fin 2048) :
    shapeCast S2048 (extractStridedSlice S2048x1 ![0, 0] v0 Facts₀.slices_S2048x2_o0_0_S2048x1) Facts₀.shapeCasts_S2048x1_S2048 (ix1 p)
      = v0 (ix2 p (0 : Fin 2)) := by
  refine (shapeCast_apply _ _ (ix1 p) (ix2 p (0 : Fin 1)) ?_).trans ?_
  · rw [Shape.rowMajor_val_two, Shape.rowMajor_val_one]; show p.val * 1 + 0 = p.val; omega
  · refine extractStridedSlice_apply _ _ _ _ (ix2 p (0 : Fin 2)) fun a => ?_
    match a with
    | ⟨0, _⟩ => show p.val = 0 + p.val; omega
    | ⟨1, _⟩ => show 0 = 0 + 0; rfl

/-- Column 1 of the location block as a vector. -/
theorem col1_apply (v0 : Vec Ideal S2048x2 .f32) (p : Fin 2048) :
    shapeCast S2048 (extractStridedSlice S2048x1 ![0, 1] v0 Facts₀.slices_S2048x2_o0_1_S2048x1) Facts₀.shapeCasts_S2048x1_S2048 (ix1 p)
      = v0 (ix2 p (1 : Fin 2)) := by
  refine (shapeCast_apply _ _ (ix1 p) (ix2 p (0 : Fin 1)) ?_).trans ?_
  · rw [Shape.rowMajor_val_two, Shape.rowMajor_val_one]; show p.val * 1 + 0 = p.val; omega
  · refine extractStridedSlice_apply _ _ _ _ (ix2 p (1 : Fin 2)) fun a => ?_
    match a with
    | ⟨0, _⟩ => show p.val = 0 + p.val; omega
    | ⟨1, _⟩ => show 1 = 1 + 0; rfl

/-- A vector [2048] viewed [2048,1]. -/
theorem addCol_apply {α : Type} (v : S2048.Idx → α) (p : Fin 2048) (q : Fin 1) :
    shapeCast S2048x1 v Facts₀.shapeCasts_S2048_S2048x1 (ix2 p q) = v (ix1 p) := by
  refine shapeCast_apply _ _ (ix2 p q) (ix1 p) ?_
  rw [Shape.rowMajor_val_two, Shape.rowMajor_val_one]; show p.val = p.val * 1 + q.val; omega

/-- A column [2048,1] broadcast along the lanes. -/
theorem bcast_apply {α : Type} (v : S2048x1.Idx → α) (p : Fin 2048) (h : Fin 512) :
    broadcastTo S2048x512 v Facts₀.broadcasts_S2048x1_S2048x512 (ix2 p h) = v (ix2 p (0 : Fin 1)) := by
  refine broadcastTo_apply _ _ (ix2 p h) (ix2 p (0 : Fin 1)) fun a => ?_
  match a with
  | ⟨0, _⟩ => rfl
  | ⟨1, _⟩ => rfl

theorem iota_apply (p : Fin 2048) (h : Fin 512) :
    iota .tc S2048x512 32 [1] Facts₀.iota_S2048x512_d1_w32 (ix2 p h) = BitVec.ofNat 32 h.val :=
  iota_single_apply .tc S2048x512 32 1 _ (ix2 p h)

theorem plane_apply (P : FVec Ideal S1x512x512 .bf16) (h w : Fin 512) :
    shapeCast S512x512 P Facts₀.shapeCasts_S1x512x512_S512x512 (ix2 h w) = P (ix3 (0 : Fin 1) h w) := by
  refine shapeCast_apply _ _ (ix2 h w) (ix3 (0 : Fin 1) h w) ?_
  rw [Shape.rowMajor_val_two, Shape.rowMajor_val_three]
  show (0 * 512 + h.val) * 512 + w.val = h.val * 512 + w.val; omega

/-! ## Words -/

/-- Small naturals are distinct as 32-bit words. -/
theorem ofNat32_inj {a b : ℕ} (ha : a < 4294967296) (hb : b < 4294967296) :
    BitVec.ofNat 32 a = BitVec.ofNat 32 b ↔ a = b := by
  constructor
  · intro h
    have := congrArg BitVec.toNat h
    simp only [BitVec.toNat_ofNat] at this
    omega
  · intro h; rw [h]

/-- The successor of a word. -/
theorem ofNat32_succ (k : ℕ) : IntOp.addi (BitVec.ofNat 32 k) 1#32 = BitVec.ofNat 32 (k + 1) := by
  unfold IntOp.addi
  apply BitVec.eq_of_toNat_eq
  simp only [BitVec.toNat_add, BitVec.toNat_ofNat]
  omega

/-- The two nested selects on "lane = cell" and "lane = cell + 1" are the weight row. -/
theorem wsel (x : EReal) (h : Fin 512) :
    Scalar.select (IntOp.cmpi .eq (BitVec.ofNat 32 h.val) (BitVec.ofNat 32 (cellN x)))
      (1 - frac x)
      (Scalar.select (IntOp.cmpi .eq (BitVec.ofNat 32 h.val) (IntOp.addi (BitVec.ofNat 32 (cellN x)) 1#32)) (frac x) 0)
      = wrow x h := by
  have hc := cellN_le x
  have hh := h.isLt
  rw [ofNat32_succ]
  unfold wrow
  by_cases h1 : h = cellF x
  · have e : IntOp.cmpi .eq (BitVec.ofNat 32 h.val) (BitVec.ofNat 32 (cellN x)) = 1#1 :=
      StableHlo.Predicate.cmpi_eq_iff.mpr ((ofNat32_inj (by omega) (by omega)).mpr (by rw [h1]; rfl))
    rw [e, select_one, if_pos h1]
  · have e : IntOp.cmpi .eq (BitVec.ofNat 32 h.val) (BitVec.ofNat 32 (cellN x)) = 0#1 :=
      eq_zero_of_ne_one fun hq => h1 (Fin.ext ((ofNat32_inj (by omega) (by omega)).mp (StableHlo.Predicate.cmpi_eq_iff.mp hq)))
    rw [e, select_zero, if_neg h1]
    by_cases h2 : h = cellS x
    · have e2 : IntOp.cmpi .eq (BitVec.ofNat 32 h.val) (BitVec.ofNat 32 (cellN x + 1)) = 1#1 :=
        StableHlo.Predicate.cmpi_eq_iff.mpr ((ofNat32_inj (by omega) (by omega)).mpr (by rw [h2]; rfl))
      rw [e2, select_one, if_pos h2]
    · have e2 : IntOp.cmpi .eq (BitVec.ofNat 32 h.val) (BitVec.ofNat 32 (cellN x + 1)) = 0#1 :=
        eq_zero_of_ne_one fun hq => h2 (Fin.ext ((ofNat32_inj (by omega) (by omega)).mp (StableHlo.Predicate.cmpi_eq_iff.mp hq)))
      rw [e2, select_zero, if_neg h2]

/-! ## The weight rows -/

/-- The fraction as the kernel computes it: the coordinate less its cell word read back. -/
theorem frac_word (x : EReal) :
    x - ((((BitVec.ofNat 32 (cellN x)).toInt : ℤ) : ℝ) : EReal) = frac x := by
  rw [cell_toInt]; simp [frac]

/-- The row weights at (p, h): the weight row of the first coordinate. -/
theorem rowW_apply (v0 : Vec Ideal S2048x2 .f32) (p : Fin 2048) (h : Fin 512) :
    k0_pay5 v0 (ix2 p h) = wrow (v0 (ix2 p (0 : Fin 2))) h := by
  unfold k0_pay5
  simp only [truncf_apply, select_apply, cmpi_apply, bcast_apply, shapeCast_self, addCol_apply, subf_apply,
    broadcast_apply, addi_apply, fptosi_apply, floor_apply, sitofp_apply', minimumf_apply, maximumf_apply,
    Ideal.ofBits_def, ofBits_zero, ofBits_one, ofBits_510]
  rw [iota_apply p h, col0_apply v0 p]
  simp only [cell_word, frac_word]
  exact wsel _ h

/-! ## The matmul at an index -/

theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product into a zero accumulator: at (p, w) the sum over the contracted axis. -/
theorem mm_apply (A : FVec Ideal S2048x512 .bf16) (B : FVec Ideal S512x512 .bf16) (p : Fin 2048) (w : Fin 512) :
    matmul dot_S2048x512_S512x512_S2048x512_1_0_0_1_n_n none A B (constant (F := Ideal) S2048x512 .f32 0x00000000#32) (ix2 p w)
      = ∑ h : Fin 512, A (ix2 p h) * B (ix2 h w) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p w)
      ((contrEquiv1 dot_S2048x512_S512x512_S2048x512_1_0_0_1_n_n 512 rfl rfl).symm k) = ix2 p k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 p w)
      ((contrEquiv1 dot_S2048x512_S512x512_S2048x512_1_0_0_1_n_n 512 rfl rfl).symm k) = ix2 k w := funext fun a => Fin.ext (by
    match a with
    | ⟨0, _⟩ => exact (rhs_0 _ _).trans hk
    | ⟨1, _⟩ => exact rhs_1 _ _)
  rw [el, er]

/-! ## One column -/

/-- The column weights as the body assembles them from the five values it carries across. -/
def colW (v22 : FVec Ideal S2048x1 .f32) (v25 : IVec S2048x512 32) (v43 : IVec S2048x512 1) (v45 : FVec Ideal S2048x1 .f32)
    (v47 : IVec S2048x1 32) : FVec Ideal S2048x512 .f32 :=
  select v43 (broadcastTo S2048x512 (shapeCast S2048x1 v45 Facts₀.shapeCasts_S2048x1_S2048x1) Facts₀.broadcasts_S2048x1_S2048x512)
    (select (cmpi .eq v25 (broadcastTo S2048x512 v47 Facts₀.broadcasts_S2048x1_S2048x512))
      (broadcastTo S2048x512 (shapeCast S2048x1 v22 Facts₀.shapeCasts_S2048x1_S2048x1) Facts₀.broadcasts_S2048x1_S2048x512)
      (broadcast S2048x512 (Scalar.ofBits .f32 0x00000000#32)))

/-- One feature's column: the plane contracted with the row weights, times the column weights, summed along the lanes. -/
def column (v41 : FVec Ideal S2048x512 .bf16) (v56 : FVec Ideal S2048x512 .f32) (P : FVec Ideal S1x512x512 .bf16) :
    FVec Ideal S2048x1 .f32 :=
  shapeCast S2048x1
    (multiReduction (F := Ideal) .add [1] S2048
      (mulf (matmul dot_S2048x512_S512x512_S2048x512_1_0_0_1_n_n none v41
        (shapeCast S512x512 P Facts₀.shapeCasts_S1x512x512_S512x512) (constant (F := Ideal) S2048x512 .f32 0x00000000#32)) v56)
      0x00000000#32 Facts₀.reduces_S2048x512_S2048 (.inl rfl) rfl)
    Facts₀.shapeCasts_S2048_S2048x1

/-- The body's last payload is the four columns side by side. -/
theorem pay9_eq (v22 : FVec Ideal S2048x1 .f32) (v25 : IVec S2048x512 32) (v41 : FVec Ideal S2048x512 .bf16)
    (v43 : IVec S2048x512 1) (v45 : FVec Ideal S2048x1 .f32) (v47 : IVec S2048x1 32)
    (P0 P1 P2 P3 : FVec Ideal S1x512x512 .bf16) :
    k0_pay9 v22 v25 v41 v43 v45 v47 P0 P1 P2 P3
      = concatenate S2048x4 1 [⟨S2048x1, column v41 (colW v22 v25 v43 v45 v47) P0⟩, ⟨S2048x1, column v41 (colW v22 v25 v43 v45 v47) P1⟩,
          ⟨S2048x1, column v41 (colW v22 v25 v43 v45 v47) P2⟩, ⟨S2048x1, column v41 (colW v22 v25 v43 v45 v47) P3⟩]
          Facts₀.concatenates_S2048x1_S2048x1_S2048x1_S2048x1_S2048x4_d1 := rfl

/-- The index a lane sum reads at row `p` and lane `w`. -/
theorem lift_eq (p : Fin 2048) (w : Fin 512) :
    (Facts₀.reduces_S2048x512_S2048).lift (ix1 p) w = ix2 p w :=
  funext fun a => Fin.ext (by
    match a with
    | ⟨0, _⟩ => rfl
    | ⟨1, _⟩ => rfl)

/-- The lane sum at a row. -/
theorem laneSum_apply (v : FVec Ideal S2048x512 .f32) (p : Fin 2048) :
    multiReduction (F := Ideal) .add [1] S2048 v 0x00000000#32 Facts₀.reduces_S2048x512_S2048 (.inl rfl) rfl (ix1 p)
      = ∑ w : Fin 512, v (ix2 p w) :=
  (Ideal.multiReduction_add_single v _ _ _ _ (ix1 p)).trans
    (Finset.sum_congr rfl fun w _ => congrArg v (lift_eq p w))

/-- A column at row `p`: the double sum of the plane against the two weight vectors. -/
theorem column_apply (v41 : FVec Ideal S2048x512 .bf16) (v56 : FVec Ideal S2048x512 .f32) (P : FVec Ideal S1x512x512 .bf16)
    (p : Fin 2048) (q : Fin 1) :
    column v41 v56 P (ix2 p q) = ∑ w : Fin 512, (∑ h : Fin 512, v41 (ix2 p h) * P (ix3 (0 : Fin 1) h w)) * v56 (ix2 p w) := by
  unfold column
  rw [addCol_apply]
  refine (laneSum_apply _ p).trans ?_
  refine Finset.sum_congr rfl fun w _ => ?_
  rw [mulf_apply, mm_apply]
  refine congrArg (· * v56 (ix2 p w)) (Finset.sum_congr rfl fun h _ => ?_)
  rw [plane_apply]

/-- The column weights at (p, w): the weight row of the second coordinate. -/
theorem colW_apply (v0 : Vec Ideal S2048x2 .f32) (p : Fin 2048) (w : Fin 512) :
    colW (k0_pay3 v0) (iota .tc S2048x512 32 [1] Facts₀.iota_S2048x512_d1_w32) (k0_pay6 v0) (k0_pay7 v0) (k0_pay8 v0) (ix2 p w)
      = wrow (v0 (ix2 p (1 : Fin 2))) w := by
  unfold colW k0_pay6 k0_pay7 k0_pay8 k0_pay4 k0_pay3 k0_pay2 k0_pay1
  simp only [select_apply, cmpi_apply, bcast_apply, shapeCast_self, addCol_apply, subf_apply,
    broadcast_apply, addi_apply, fptosi_apply, floor_apply, sitofp_apply', minimumf_apply, maximumf_apply,
    Ideal.ofBits_def, ofBits_zero, ofBits_one, ofBits_510]
  rw [iota_apply p w, col1_apply v0 p]
  simp only [cell_word, frac_word]
  exact wsel _ w

/-! ## The loads -/

/-- The zero offsets of a whole rank-2 rectangle. -/
theorem hz2 : (![0, 0] : Fin 2 → Nat) = fun _ => 0 := funext fun a => by
  match a with
  | ⟨0, _⟩ => rfl
  | ⟨1, _⟩ => rfl

/-- A plane of the grid block read through its unit rectangle. -/
theorem ld_plane (x0 : Vec Ideal S4x512x512 .bf16) (off : Fin 3 → ℕ)
    (inb : ∀ a, off a + S1x512x512.size a ≤ S4x512x512.size a) (k : Fin 4) (h0 : off 0 = k.val) (h1 : off 1 = 0) (h2 : off 2 = 0)
    (h w : Fin 512) :
    View.ld x0 (Rect.unit (s := S4x512x512) off S1x512x512.size inb) (ix3 (0 : Fin 1) h w) = x0 (ix3 k h w) := by
  show x0 _ = x0 _
  refine congrArg x0 (funext fun a => Fin.ext ?_)
  match a with
  | ⟨0, _⟩ => show off 0 + 1 * 0 = k.val; omega
  | ⟨1, _⟩ => show off 1 + 1 * h.val = h.val; omega
  | ⟨2, _⟩ => show off 2 + 1 * w.val = w.val; omega

/-! ## The block at a point -/

theorem out_apply (x0 : Vec Ideal S4x512x512 .bf16) (x1 : Vec Ideal S2048x2 .f32) (r : Fin 2048) (f : Fin 4) :
    out0_2 (F := Ideal) x0 x1 (ix2 r f)
      = Cert.Bilinear.kform (fun a b => x0 (ix3 f a b)) (x1 (ix2 r (0 : Fin 2))) (x1 (ix2 r (1 : Fin 2))) := by
  unfold out0_2
  rw [View.canon_unit_zero hz2]
  simp only [View.ld_unit_zero (S := S2048x2) hz2]
  rw [pay9_eq]
  unfold kform
  -- each column is the same double sum over its own plane
  have key : ∀ (P : FVec Ideal S1x512x512 .bf16) (k : Fin 4), (∀ h w : Fin 512, P (ix3 (0 : Fin 1) h w) = x0 (ix3 k h w)) →
      column (k0_pay5 x1) (colW (k0_pay3 x1) (iota .tc S2048x512 32 [1] Facts₀.iota_S2048x512_d1_w32) (k0_pay6 x1) (k0_pay7 x1) (k0_pay8 x1)) P
          (ix2 r (0 : Fin 1))
        = ∑ w : Fin 512, (∑ h : Fin 512, wrow (x1 (ix2 r (0 : Fin 2))) h * x0 (ix3 k h w)) * wrow (x1 (ix2 r (1 : Fin 2))) w := by
    intro P k hP
    rw [column_apply]
    refine Finset.sum_congr rfl fun w _ => ?_
    rw [colW_apply]
    refine congrArg (· * wrow (x1 (ix2 r (1 : Fin 2))) w) (Finset.sum_congr rfl fun h _ => ?_)
    rw [rowW_apply, hP]
  have hi : ∀ (g : Fin 4) (b : Fin S2048x1.rank), b.cast (rfl : S2048x1.rank = S2048x4.rank) ≠ (1 : Fin S2048x4.rank) →
      ((ix2 r (0 : Fin 1)) b).val = ((ix2 r g) (b.cast (rfl : S2048x1.rank = S2048x4.rank))).val := by
    intro g b hb
    match b with
    | ⟨0, _⟩ => rfl
    | ⟨1, _⟩ => exact absurd rfl hb
  match f with
  | ⟨0, _⟩ =>
    refine Eq.trans (concatenate_apply_piece (t := S2048x4) 1 _ _ (ix2 r _) 0 (by simp) S2048x1 _ rfl rfl 0 rfl (ix2 r (0 : Fin 1)) (hi _) rfl) ?_
    exact key _ _ fun h w => ld_plane x0 _ _ _ rfl rfl rfl h w
  | ⟨1, _⟩ =>
    refine Eq.trans (concatenate_apply_piece (t := S2048x4) 1 _ _ (ix2 r _) 1 (by simp) S2048x1 _ rfl rfl 1 rfl (ix2 r (0 : Fin 1)) (hi _) rfl) ?_
    exact key _ _ fun h w => ld_plane x0 _ _ _ rfl rfl rfl h w
  | ⟨2, _⟩ =>
    refine Eq.trans (concatenate_apply_piece (t := S2048x4) 1 _ _ (ix2 r _) 2 (by simp) S2048x1 _ rfl rfl 2 rfl (ix2 r (0 : Fin 1)) (hi _) rfl) ?_
    exact key _ _ fun h w => ld_plane x0 _ _ _ rfl rfl rfl h w
  | ⟨3, _⟩ =>
    refine Eq.trans (concatenate_apply_piece (t := S2048x4) 1 _ _ (ix2 r _) 3 (by simp) S2048x1 _ rfl rfl 3 rfl (ix2 r (0 : Fin 1)) (hi _) rfl) ?_
    exact key _ _ fun h w => ld_plane x0 _ _ _ rfl rfl rfl h w

end Cert.KernelIdeal.Point

end
-- ==== Proof.KernelFinal.lean ====
/-
  The kernel's result array. At each of the 4096 grid points the body sees the whole grid (already laid out
  [feature, row, column] by the transpose that precedes the launch) and rows `2048 t … 2048 t + 2047` of the
  locations, and writes rows `2048 t … 2048 t + 2047` of the result. Each entry it writes is the double sum of the
  specification at that row's two coordinates, so block `t` of the result is block `t` of one whole-array function;
  the blocks tile the result (row `n` lies in block `n / 2048`), so the array ends holding that function.
-/
import proofs.«108483_j72816875536993_1_alg».proof.Proof.Gen.KernelIdeal.Value
import proofs.«108483_j72816875536993_1_alg».proof.Proof.KernelPoint
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Value

variable (m : (ℓ : Loc nD τ sig) → Buf (Elt Ideal) ℓ) (ρ : Dev nD → PrngReg)

/-! ## Where each window's block sits -/

/-- The grid window never moves; -/
theorem idx_w0 : ∀ t : Fin cfg0.N, win0_0.index t ⟨0, by decide⟩ = 0 ∧ win0_0.index t ⟨1, by decide⟩ = 0 ∧ win0_0.index t ⟨2, by decide⟩ = 0 :=
  (by decide +kernel : ∀ t : Fin grid0.N, win0_0.index t ⟨0, by decide⟩ = 0 ∧ win0_0.index t ⟨1, by decide⟩ = 0 ∧ win0_0.index t ⟨2, by decide⟩ = 0)

/-- the location window is at row block `t`; -/
theorem idx_w1 : ∀ t : Fin cfg0.N, win0_1.index t ⟨0, by decide⟩ = t.val ∧ win0_1.index t ⟨1, by decide⟩ = 0 :=
  (by decide +kernel : ∀ t : Fin grid0.N, win0_1.index t ⟨0, by decide⟩ = t.val ∧ win0_1.index t ⟨1, by decide⟩ = 0)

/-- and so is the result window. -/
theorem idx_w2 : ∀ t : Fin cfg0.N, win0_2.index t ⟨0, by decide⟩ = t.val ∧ win0_2.index t ⟨1, by decide⟩ = 0 :=
  (by decide +kernel : ∀ t : Fin grid0.N, win0_2.index t ⟨0, by decide⟩ = t.val ∧ win0_2.index t ⟨1, by decide⟩ = 0)

/-! ## The arrays the region finds -/

/-- The grid as the region finds it is the argument with the feature axis moved to the front (the change of
    float format that follows is the identity on extended reals). -/
theorem gridT_apply (c : Dev nD) (f : Fin 4) (a b : Fin 512) :
    (V m c main_v1 : Vec Ideal S4x512x512 .bf16) (ix3 f a b)
      = (m ((c : Thread nD τ).loc main_arg0) : Vec Ideal S512x512x4 .f32) (ix3 a b f) := by
  have e : (V m c main_v1 : Vec Ideal S4x512x512 .bf16)
      = truncf (F := Ideal) .bf16 (transpose S4x512x512 [2, 0, 1] (m ((c : Thread nD τ).loc main_arg0) : Vec Ideal S512x512x4 .f32) transposes_S512x512x4_S4x512x512_2_0_1) bitsLt_bf16_f32 := by
    dsimp only [Gen.V, Gen.hostOps0]; after_results
  rw [e]
  show transpose S4x512x512 [2, 0, 1] (m ((c : Thread nD τ).loc main_arg0) : Vec Ideal S512x512x4 .f32) transposes_S512x512x4_S4x512x512_2_0_1 (ix3 f a b) = _
  exact transpose_apply [2, 0, 1] _ _ (ix3 f a b) (ix3 a b f) (fun d => by
    match d with
    | ⟨0, _⟩ => rfl
    | ⟨1, _⟩ => rfl
    | ⟨2, _⟩ => rfl)

/-- The grid window's block at any point is the whole transposed grid. -/
theorem iblk0_apply (c : Dev nD) (t : Fin cfg0.N) (f : Fin 4) (a b : Fin 512) :
    (iblk m c 0 t : Vec Ideal S4x512x512 .bf16) (ix3 f a b) = (V m c main_v1 : Vec Ideal S4x512x512 .bf16) (ix3 f a b) := by
  obtain ⟨e0, e1, e2⟩ := idx_w0 t
  unfold iblk
  rw [View.read_apply]
  show V m c main_v1 _ = V m c main_v1 _
  congr 1
  funext d
  apply Fin.ext
  match d with
  | ⟨0, _⟩ => show win0_0.index t ⟨0, by decide⟩ * 4 + 1 * f.val = f.val; rw [e0]; omega
  | ⟨1, _⟩ => show win0_0.index t ⟨1, by decide⟩ * 512 + 1 * a.val = a.val; rw [e1]; omega
  | ⟨2, _⟩ => show win0_0.index t ⟨2, by decide⟩ * 512 + 1 * b.val = b.val; rw [e2]; omega

/-- The location window's block at point `t` is rows `2048 t …` of the locations. -/
theorem iblk1_apply (c : Dev nD) (t : Fin cfg0.N) (r : Fin 2048) (k : Fin 2) (n : Fin 8388608) (hn : n.val = t.val * 2048 + r.val) :
    (iblk m c 1 t : Vec Ideal S2048x2 .f32) (ix2 r k) = (V m c main_arg1 : Vec Ideal S8388608x2 .f32) (ix2 n k) := by
  obtain ⟨e0, e1⟩ := idx_w1 t
  unfold iblk
  rw [View.read_apply]
  show V m c main_arg1 _ = V m c main_arg1 _
  congr 1
  funext d
  apply Fin.ext
  match d with
  | ⟨0, _⟩ => show win0_1.index t ⟨0, by decide⟩ * 2048 + 1 * r.val = n.val; rw [e0, hn]; omega
  | ⟨1, _⟩ => show win0_1.index t ⟨1, by decide⟩ * 2 + 1 * k.val = k.val; rw [e1]; omega

/-! ## The result array -/

/-- The result: at row `n`, feature `f`, the double sum over plane `f` of the transposed grid at the coordinates of
    location `n`. -/
def KG (c : Dev nD) : Vec Ideal S8388608x4 .f32 := fun i =>
  Cert.Bilinear.Kat (V m c main_v1 : Vec Ideal S4x512x512 .bf16) (V m c main_arg1 : Vec Ideal S8388608x2 .f32) (i 0) (i 1)

/-- The double sum depends only on its three arguments. -/
theorem kform_congr {u u' : Fin 512 → Fin 512 → EReal} {x x' y y' : EReal} (hu : u = u') (hx : x = x') (hy : y = y') :
    Cert.Bilinear.kform u x y = Cert.Bilinear.kform u' x' y' := by subst hu hx hy; rfl

/-- What point `t` writes back is block `t` of `KG`. -/
theorem flushed_eq (c : Dev nD) (t : Fin cfg0.N) :
    (dats m 0 c).flushed 2 t = ((cfg0.win 2).blk t).view.read (Elt Ideal) (KG m c) := by
  obtain ⟨e0, e1⟩ := idx_w2 t
  have hN : t.val < 4096 := lt_of_lt_of_eq t.isLt N_0
  rw [flushed2]
  funext j
  obtain ⟨r, f, rfl⟩ : ∃ (r : Fin 2048) (f : Fin 4), j = ix2 r f := ⟨j 0, j 1, eq_ix2 _⟩
  show out0_2 (F := Ideal) (iblk m c 0 t) (iblk m c 1 t) (ix2 r f) = KG m c (((cfg0.win 2).blk t).view.emb (ix2 r f))
  refine (Cert.KernelIdeal.Point.out_apply (iblk m c 0 t) (iblk m c 1 t) r f).trans ?_
  have hr : r.val < 2048 := r.isLt
  have hn : (((cfg0.win 2).blk t).view.emb (ix2 r f) : S8388608x4.Idx)
      = ix2 (⟨t.val * 2048 + r.val, by omega⟩ : Fin 8388608) f := by
    funext d
    apply Fin.ext
    match d with
    | ⟨0, _⟩ => show win0_2.index t ⟨0, by decide⟩ * 2048 + 1 * r.val = t.val * 2048 + r.val; rw [e0]; omega
    | ⟨1, _⟩ => show win0_2.index t ⟨1, by decide⟩ * 4 + 1 * f.val = f.val; rw [e1]; omega
  refine Eq.trans ?_ (congrArg (KG m c) hn.symm)
  show Cert.Bilinear.kform _ _ _ = Cert.Bilinear.Kat _ _ (⟨t.val * 2048 + r.val, by omega⟩ : Fin 8388608) f
  unfold Cert.Bilinear.Kat
  exact kform_congr (funext fun a => funext fun b => iblk0_apply m c t f a b)
    (iblk1_apply m c t r (0 : Fin 2) ⟨t.val * 2048 + r.val, by omega⟩ rfl)
    (iblk1_apply m c t r (1 : Fin 2) ⟨t.val * 2048 + r.val, by omega⟩ rfl)

/-- Every index of the result lies in the block of the point its row belongs to. -/
theorem cover (i : S8388608x4.Idx) :
    ∃ t : Fin cfg0.N, (cfg0.win 2).flush t = true ∧ i ∈ ((cfg0.win 2).blk t).view.set := by
  have hi0 : (i 0).val < 8388608 := (i 0).isLt
  have hi1 : (i 1).val < 4 := (i 1).isLt
  have hlt : (i 0).val / 2048 < cfg0.N := by rw [show cfg0.N = 4096 from N_0]; omega
  obtain ⟨e0, e1⟩ := idx_w2 ⟨(i 0).val / 2048, hlt⟩
  refine ⟨⟨(i 0).val / 2048, hlt⟩, flush0_2 _, ?_⟩
  show i ∈ ((View.whole main_v2).slice (win0_2.rect ⟨(i 0).val / 2048, hlt⟩)).set
  rw [View.set_slice_whole, Rect.mem_set_unit]
  intro a
  match a with
  | ⟨0, _⟩ =>
    show win0_2.index ⟨(i 0).val / 2048, hlt⟩ ⟨0, by decide⟩ * 2048 ≤ (i 0).val
      ∧ (i 0).val < win0_2.index ⟨(i 0).val / 2048, hlt⟩ ⟨0, by decide⟩ * 2048 + 2048
    rw [e0]; show (i 0).val / 2048 * 2048 ≤ (i 0).val ∧ (i 0).val < (i 0).val / 2048 * 2048 + 2048; omega
  | ⟨1, _⟩ =>
    show win0_2.index ⟨(i 0).val / 2048, hlt⟩ ⟨1, by decide⟩ * 4 ≤ (i 1).val
      ∧ (i 1).val < win0_2.index ⟨(i 0).val / 2048, hlt⟩ ⟨1, by decide⟩ * 4 + 4
    rw [e1]; omega

/-- So the result array ends holding `KG`. -/
theorem final (c : Dev nD) : (dats m 0 c).arrAt 2 cfg0.N = KG m c :=
  (dats m 0 c).arrAt_eq_of_cover 2 (KG m c) (fun t _ => flushed_eq m c t) cover

/-- The result at row `n`, feature `f`, in terms of the ARGUMENT arrays: the double sum over the grid's
    feature-`f` values at the coordinates of location `n`. -/
theorem KG_apply (c : Dev nD) (n : Fin 8388608) (f : Fin 4) :
    KG m c (ix2 n f)
      = Cert.Bilinear.kform (fun a b => (m ((c : Thread nD τ).loc main_arg0) : Vec Ideal S512x512x4 .f32) (ix3 a b f))
          ((m ((c : Thread nD τ).loc main_arg1) : Vec Ideal S8388608x2 .f32) (ix2 n (0 : Fin 2)))
          ((m ((c : Thread nD τ).loc main_arg1) : Vec Ideal S8388608x2 .f32) (ix2 n (1 : Fin 2))) := by
  show Cert.Bilinear.Kat _ _ n f = _
  unfold Cert.Bilinear.Kat
  exact kform_congr (funext fun a => funext fun b => gridT_apply m c f a b)
    (congrFun (V_main_arg1 m c) (ix2 n (0 : Fin 2))) (congrFun (V_main_arg1 m c) (ix2 n (1 : Fin 2)))

/-- The kernel's run, read: the result array at `KG`, the arguments unchanged. -/
theorem run : θ_run defs (onTc (τ := τ) (main (F := Ideal))) ⟨m, fun _ => 0, ρ⟩ fun r => ∀ c : Dev nD,
      r.2.mem ((c : Thread nD τ).loc main_v2) = KG m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Final

end
-- ==== Proof.RefPoint.lean ====
/-
  The reference's result, read one operation at a time, is the four-corner interpolation of the specification
  (`Cert.Bilinear.G`) of its two argument arrays.

  At a point `n` with coordinates `x = loc[n,0]`, `y = loc[n,1]`: the clamped floor of a coordinate, converted, is the
  word of its cell (`cell_word`) and its successor the word of the upper neighbour; neither is negative, so the index
  normalisation keeps both; the two words of a corner are columns 0 and 1 of an index array, and the gather at such a
  row reads the grid at that pair of cells; the weights are `frac` and `1 − frac` of the coordinates; the sum is
  `bilin` term for term.
-/
import proofs.«108483_j72816875536993_1_alg».proof.Proof.Gen.ReferenceIdeal.Read
import proofs.«108483_j72816875536993_1_alg».proof.Proof.Laws
import Idealize.ShloMosaic.Lib.ValueIdx
import Idealize.ShloMosaic.Lib.Pipeline.Value
import Idealize.ShloMosaic.Lib.StableHlo.Predicate

noncomputable section

namespace Cert.ReferenceIdeal.Point

open Cert.ReferenceIdeal Cert.ReferenceIdeal.Gen Cert.ReferenceIdeal.Read Idealize.ShloMosaic Idealize.ShloMosaic.ValueIdx
open Idealize.ShloMosaic.StableHlo.Predicate Cert.Bilinear

/-! ## Constants -/

/-- The integer word 0 converted to a float is 0. -/
theorem sitofp_zero : FloatOps.sitofp (F := Ideal) .f32 (0#32) = (0 : EReal) := by
  show (((0#32 : BitVec 32).toInt : ℝ) : EReal) = 0
  have h : (0#32 : BitVec 32).toInt = 0 := by decide
  rw [h]; simp

/-- The integer word 510 converted to a float is 510. -/
theorem sitofp_510 : FloatOps.sitofp (F := Ideal) .f32 (510#32) = ((510 : ℝ) : EReal) := by
  show (((510#32 : BitVec 32).toInt : ℝ) : EReal) = _
  have h : (510#32 : BitVec 32).toInt = 510 := by decide
  rw [h]; norm_num

/-- The float pattern of 1.0 denotes 1. -/
theorem ofBits_one : FloatOps.ofBits (F := Ideal) .f32 0x3F800000#32 = (1 : EReal) := by
  show Ideal.ofBits .f32 0x3F800000#32 = 1
  simp [Ideal.ofBits, Ideal.ieee, -EReal.coe_mul]; norm_num

/-! ## Words, columns and the gather -/

/-- A word at most 511 is not negative, so the normalisation "add 512 when negative" keeps it. -/
theorem norm_word (k : ℕ) (hk : k ≤ 511) :
    Scalar.select (IntOp.cmpi .slt (BitVec.ofNat 32 k) 0#32) (IntOp.addi (BitVec.ofNat 32 k) 512#32) (BitVec.ofNat 32 k)
      = BitVec.ofNat 32 k := by
  have hk' : (BitVec.ofNat 32 k).toNat = k := by rw [BitVec.toNat_ofNat]; omega
  have h : IntOp.cmpi .slt (BitVec.ofNat 32 k) 0#32 = 0#1 := by
    refine eq_zero_of_ne_one (fun h => ?_)
    have := (slt_iff_toNat (by rw [hk']; omega) (by decide)).mp h
    simp at this
  rw [h, select_zero]

/-- The successor of a word. -/
theorem succ_word (k : ℕ) : IntOp.addi (BitVec.ofNat 32 k) 1#32 = BitVec.ofNat 32 (k + 1) :=
  (BitVec.ofNat_add k 1).symm

/-- Two columns joined along axis 1 read the first at column 0 … -/
theorem concat_at0 (p q : IVec S8388608x1 32) (n : Fin 8388608) :
    concatenate S8388608x2 1 [⟨S8388608x1, p⟩, ⟨S8388608x1, q⟩] concatenates_S8388608x1_S8388608x1_S8388608x2_d1
      (ix2 n (0 : Fin 2)) = p (ix2 n (0 : Fin 1)) :=
  concatenate_pair_apply_left (1 : Fin 2) p q _ (ix2 n (0 : Fin 2)) rfl (ix2 n (0 : Fin 1))
    (fun b => match b with | ⟨0, _⟩ => rfl | ⟨1, _⟩ => rfl)

/-- … and the second at column 1. -/
theorem concat_at1 (p q : IVec S8388608x1 32) (n : Fin 8388608) :
    concatenate S8388608x2 1 [⟨S8388608x1, p⟩, ⟨S8388608x1, q⟩] concatenates_S8388608x1_S8388608x1_S8388608x2_d1
      (ix2 n (1 : Fin 2)) = q (ix2 n (0 : Fin 1)) :=
  concatenate_pair_apply_right (1 : Fin 2) p q _ (ix2 n (1 : Fin 2)) rfl rfl (ix2 n (0 : Fin 1))
    (fun b => match b with | ⟨0, _⟩ => fun _ => rfl | ⟨1, _⟩ => fun h => absurd rfl h) rfl

/-- The start of the slice on a collapsed axis `c` (0 or 1) whose index word is `k ≤ 511`: the word itself, the clamp
    to `[0, 511]` not acting. -/
theorem start_at (idx : IVec S8388608x2 32) (n : Fin 8388608) (f : Fin 4) (c : Fin 3) (c' : Fin 2) (hcc : c.val = c'.val)
    (hm : c ∈ gather_S512x512x4_S8388608x2_S8388608x4_1_01_n_n_01_1_114.startIndexMap) (k : ℕ) (hk : k ≤ 511) (h : idx (ix2 n c') = BitVec.ofNat 32 k) :
    gather_S512x512x4_S8388608x2_S8388608x4_1_01_n_n_01_1_114.start (ix2 n f) idx c = k := by
  unfold GatherDims.start
  rw [dif_pos hm]
  have hsi : gather_S512x512x4_S8388608x2_S8388608x4_1_01_n_n_01_1_114.siIdx (ix2 n f) ⟨List.idxOf c gather_S512x512x4_S8388608x2_S8388608x4_1_01_n_n_01_1_114.startIndexMap, List.idxOf_lt_length_iff.2 hm⟩ = ix2 n c' := by
    funext d; refine Fin.ext ?_
    match c, c', hcc, hm with
    | ⟨0, _⟩, ⟨0, _⟩, _, _ => match d with | ⟨0, _⟩ => rfl | ⟨1, _⟩ => rfl
    | ⟨1, _⟩, ⟨1, _⟩, _, _ => match d with | ⟨0, _⟩ => rfl | ⟨1, _⟩ => rfl
  rw [hsi, h, toInt_ofNat_small k (by omega), Int.toNat_natCast]
  match c, c', hcc, hm with
  | ⟨0, _⟩, ⟨0, _⟩, _, _ => show min k (512 - 1) = k; omega
  | ⟨1, _⟩, ⟨1, _⟩, _, _ => show min k (512 - 1) = k; omega

/-- The gather at row `n` of an index array whose two words there are `a, b ≤ 511` reads the grid at cell `(a, b)`:
    axes 0 and 1 of the grid are collapsed and start-indexed by columns 0 and 1, axis 2 is the offset axis. -/
theorem gather_at (g : FVec Ideal S512x512x4 .f32) (idx : IVec S8388608x2 32) (n : Fin 8388608) (f : Fin 4)
    (a b : ℕ) (ha : a ≤ 511) (hb : b ≤ 511)
    (h0 : idx (ix2 n (0 : Fin 2)) = BitVec.ofNat 32 a) (h1 : idx (ix2 n (1 : Fin 2)) = BitVec.ofNat 32 b) :
    Host.gather gather_S512x512x4_S8388608x2_S8388608x4_1_01_n_n_01_1_114 g idx (ix2 n f) = g (ix3 (⟨a, by omega⟩ : Fin 512) (⟨b, by omega⟩ : Fin 512) f) := by
  unfold Host.gather
  congr 1
  funext c
  refine Fin.ext ?_
  show GatherDims.start _ (ix2 n f) idx c + GatherDims.batchCoord _ (ix2 n f) c + GatherDims.offCoord _ (ix2 n f) c = _
  rw [GatherDims.batchCoord_eq_zero _ _ _ List.not_mem_nil]
  match c with
  | ⟨0, _⟩ =>
    have hc : (⟨0, by decide⟩ : Fin 3) ∈ [(0 : Fin 3), 1] := by decide
    rw [GatherDims.offCoord_eq_zero _ _ _ (fun h => ((GatherDims.mem_sKept _ _).mp h).1 hc),
      start_at idx n f _ (0 : Fin 2) rfl hc a ha h0]
    rfl
  | ⟨1, _⟩ =>
    have hc : (⟨1, by decide⟩ : Fin 3) ∈ [(0 : Fin 3), 1] := by decide
    rw [GatherDims.offCoord_eq_zero _ _ _ (fun h => ((GatherDims.mem_sKept _ _).mp h).1 hc),
      start_at idx n f _ (1 : Fin 2) rfl hc b hb h1]
    rfl
  | ⟨2, _⟩ =>
    have hc : (⟨2, by decide⟩ : Fin 3) ∉ [(0 : Fin 3), 1] := by decide
    have hm : (⟨2, by decide⟩ : Fin 3) ∉ gather_S512x512x4_S8388608x2_S8388608x4_1_01_n_n_01_1_114.startIndexMap := hc
    have hk : (⟨2, by decide⟩ : Fin 3) ∈ gather_S512x512x4_S8388608x2_S8388608x4_1_01_n_n_01_1_114.sKept := (GatherDims.mem_sKept _ _).mpr ⟨hc, List.not_mem_nil⟩
    unfold GatherDims.start GatherDims.offCoord
    rw [dif_neg hm, dif_pos hk, Nat.zero_add]
    rfl

/-! ## The stages at a point -/

section Stages
variable (g : FVec Ideal S512x512x4 .f32) (loc : FVec Ideal S8388608x2 .f32) (n : Fin 8388608) (f : Fin 4)

/-- The two coordinate vectors. -/
theorem v1_at : val_main_v1 (F := Ideal) loc (ix1 n) = loc (ix2 n (0 : Fin 2)) := by
  rw [val_main_v1_apply, val_main_v0_apply]
  congr 1; funext a
  match a with
  | ⟨0, _⟩ => exact Fin.ext (Nat.div_one _)
  | ⟨1, _⟩ => rfl

theorem v3_at : val_main_v3 (F := Ideal) loc (ix1 n) = loc (ix2 n (1 : Fin 2)) := by
  rw [val_main_v3_apply, val_main_v2_apply]
  congr 1; funext a
  match a with
  | ⟨0, _⟩ => exact Fin.ext (Nat.div_one _)
  | ⟨1, _⟩ => rfl

/-- The floors clamped to `[0, 510]` … -/
theorem v5_at : val_main_v5 (F := Ideal) loc (ix1 n)
    = min (((510 : ℝ) : EReal)) (max (0 : EReal) (Ideal.liftRound Int.floor (loc (ix2 n (0 : Fin 2))))) := by
  rw [val_main_v5_apply, val_main_call0_v4_apply, val_main_call0_v3_apply, val_main_c_0_apply, val_main_call0_v2_apply,
    val_main_call0_v1_apply, val_main_call0_v0_apply, val_main_c_apply, val_main_v4_apply, v1_at, sitofp_zero, sitofp_510]
  rfl

theorem v8_at : val_main_v8 (F := Ideal) loc (ix1 n)
    = min (((510 : ℝ) : EReal)) (max (0 : EReal) (Ideal.liftRound Int.floor (loc (ix2 n (1 : Fin 2))))) := by
  rw [val_main_v8_apply, val_main_call1_v4_apply, val_main_call1_v3_apply, val_main_c_2_apply, val_main_call1_v2_apply,
    val_main_call1_v1_apply, val_main_call1_v0_apply, val_main_c_1_apply, val_main_v7_apply, v3_at, sitofp_zero, sitofp_510]
  rfl

/-- … as words are the cells … -/
theorem v6_at : val_main_v6 (F := Ideal) loc (ix1 n) = BitVec.ofNat 32 (cellN (loc (ix2 n (0 : Fin 2)))) := by
  rw [val_main_v6_apply, v5_at]; exact cell_word _

theorem v9_at : val_main_v9 (F := Ideal) loc (ix1 n) = BitVec.ofNat 32 (cellN (loc (ix2 n (1 : Fin 2)))) := by
  rw [val_main_v9_apply, v8_at]; exact cell_word _

/-- … and the words plus one their upper neighbours. -/
theorem v11_at : val_main_v11 (F := Ideal) loc (ix1 n) = BitVec.ofNat 32 (cellN (loc (ix2 n (0 : Fin 2))) + 1) := by
  rw [val_main_v11_apply, val_main_v10_apply, val_main_c_3_apply, v6_at, succ_word]

theorem v13_at : val_main_v13 (F := Ideal) loc (ix1 n) = BitVec.ofNat 32 (cellN (loc (ix2 n (1 : Fin 2))) + 1) := by
  rw [val_main_v13_apply, val_main_v12_apply, val_main_c_4_apply, v9_at, succ_word]

/-- A cell's word converted back to a float is the cell. -/
theorem sitofp_cell (x : EReal) : FloatOps.sitofp (F := Ideal) .f32 (BitVec.ofNat 32 (cellN x)) = ((cellN x : ℝ) : EReal) := by
  show ((((BitVec.ofNat 32 (cellN x)).toInt : ℤ) : ℝ) : EReal) = _
  rw [cell_toInt, Int.cast_natCast]

/-- The two columns of upper-neighbour weights: the coordinate minus its cell. -/
theorem v16_at : val_main_v16 (F := Ideal) loc (ix2 n (0 : Fin 1)) = frac (loc (ix2 n (0 : Fin 2))) := by
  rw [val_main_v16_apply, show idx_main_v16 (ix2 n (0 : Fin 1)) = ix1 n from eq_ix1 _, val_main_v15_apply,
    val_main_v14_apply, v1_at, v6_at, sitofp_cell]
  rfl

theorem v19_at : val_main_v19 (F := Ideal) loc (ix2 n (0 : Fin 1)) = frac (loc (ix2 n (1 : Fin 2))) := by
  rw [val_main_v19_apply, show idx_main_v19 (ix2 n (0 : Fin 1)) = ix1 n from eq_ix1 _, val_main_v18_apply,
    val_main_v17_apply, v3_at, v9_at, sitofp_cell]
  rfl

/-! The eight index columns (for each of the four corners, its cell or upper neighbour along each axis): the
    normalisation keeps each word, which is at most 511. -/

theorem v30_at : val_main_v30 (F := Ideal) loc (ix2 n (0 : Fin 1)) = BitVec.ofNat 32 (cellN (loc (ix2 n (0 : Fin 2)))) := by
  rw [val_main_v30_apply, show idx_main_v30 (ix2 n (0 : Fin 1)) = ix1 n from eq_ix1 _, val_main_v24_apply,
    val_main_v21_apply, val_main_v20_apply, val_main_c_5_apply, val_main_v23_apply, val_main_v22_apply,
    val_main_c_6_apply, v6_at]
  exact norm_word _ (by have := cellN_le (loc (ix2 n (0 : Fin 2))); omega)

theorem v31_at : val_main_v31 (F := Ideal) loc (ix2 n (0 : Fin 1)) = BitVec.ofNat 32 (cellN (loc (ix2 n (1 : Fin 2)))) := by
  rw [val_main_v31_apply, show idx_main_v31 (ix2 n (0 : Fin 1)) = ix1 n from eq_ix1 _, val_main_v29_apply,
    val_main_v26_apply, val_main_v25_apply, val_main_c_7_apply, val_main_v28_apply, val_main_v27_apply,
    val_main_c_8_apply, v9_at]
  exact norm_word _ (by have := cellN_le (loc (ix2 n (1 : Fin 2))); omega)

theorem v44_at : val_main_v44 (F := Ideal) loc (ix2 n (0 : Fin 1)) = BitVec.ofNat 32 (cellN (loc (ix2 n (0 : Fin 2)))) := by
  rw [val_main_v44_apply, show idx_main_v44 (ix2 n (0 : Fin 1)) = ix1 n from eq_ix1 _, val_main_v38_apply,
    val_main_v35_apply, val_main_v34_apply, val_main_c_9_apply, val_main_v37_apply, val_main_v36_apply,
    val_main_c_10_apply, v6_at]
  exact norm_word _ (by have := cellN_le (loc (ix2 n (0 : Fin 2))); omega)

theorem v45_at : val_main_v45 (F := Ideal) loc (ix2 n (0 : Fin 1)) = BitVec.ofNat 32 (cellN (loc (ix2 n (1 : Fin 2))) + 1) := by
  rw [val_main_v45_apply, show idx_main_v45 (ix2 n (0 : Fin 1)) = ix1 n from eq_ix1 _, val_main_v43_apply,
    val_main_v40_apply, val_main_v39_apply, val_main_c_11_apply, val_main_v42_apply, val_main_v41_apply,
    val_main_c_12_apply, v13_at]
  exact norm_word _ (by have := cellN_le (loc (ix2 n (1 : Fin 2))); omega)

theorem v58_at : val_main_v58 (F := Ideal) loc (ix2 n (0 : Fin 1)) = BitVec.ofNat 32 (cellN (loc (ix2 n (0 : Fin 2))) + 1) := by
  rw [val_main_v58_apply, show idx_main_v58 (ix2 n (0 : Fin 1)) = ix1 n from eq_ix1 _, val_main_v52_apply,
    val_main_v49_apply, val_main_v48_apply, val_main_c_13_apply, val_main_v51_apply, val_main_v50_apply,
    val_main_c_14_apply, v11_at]
  exact norm_word _ (by have := cellN_le (loc (ix2 n (0 : Fin 2))); omega)

theorem v59_at : val_main_v59 (F := Ideal) loc (ix2 n (0 : Fin 1)) = BitVec.ofNat 32 (cellN (loc (ix2 n (1 : Fin 2)))) := by
  rw [val_main_v59_apply, show idx_main_v59 (ix2 n (0 : Fin 1)) = ix1 n from eq_ix1 _, val_main_v57_apply,
    val_main_v54_apply, val_main_v53_apply, val_main_c_15_apply, val_main_v56_apply, val_main_v55_apply,
    val_main_c_16_apply, v9_at]
  exact norm_word _ (by have := cellN_le (loc (ix2 n (1 : Fin 2))); omega)

theorem v72_at : val_main_v72 (F := Ideal) loc (ix2 n (0 : Fin 1)) = BitVec.ofNat 32 (cellN (loc (ix2 n (0 : Fin 2))) + 1) := by
  rw [val_main_v72_apply, show idx_main_v72 (ix2 n (0 : Fin 1)) = ix1 n from eq_ix1 _, val_main_v66_apply,
    val_main_v63_apply, val_main_v62_apply, val_main_c_17_apply, val_main_v65_apply, val_main_v64_apply,
    val_main_c_18_apply, v11_at]
  exact norm_word _ (by have := cellN_le (loc (ix2 n (0 : Fin 2))); omega)

theorem v73_at : val_main_v73 (F := Ideal) loc (ix2 n (0 : Fin 1)) = BitVec.ofNat 32 (cellN (loc (ix2 n (1 : Fin 2))) + 1) := by
  rw [val_main_v73_apply, show idx_main_v73 (ix2 n (0 : Fin 1)) = ix1 n from eq_ix1 _, val_main_v71_apply,
    val_main_v68_apply, val_main_v67_apply, val_main_c_19_apply, val_main_v70_apply, val_main_v69_apply,
    val_main_c_20_apply, v13_at]
  exact norm_word _ (by have := cellN_le (loc (ix2 n (1 : Fin 2))); omega)

/-! The four corners: the grid at the cell or its upper neighbour along each axis. -/

theorem v33_at : val_main_v33 (F := Ideal) g loc (ix2 n f) = g (ix3 (cellF (loc (ix2 n (0 : Fin 2)))) (cellF (loc (ix2 n (1 : Fin 2)))) f) := by
  unfold val_main_v33 val_main_v32
  exact gather_at g _ n f _ _ (by have := cellN_le (loc (ix2 n (0 : Fin 2))); omega) (by have := cellN_le (loc (ix2 n (1 : Fin 2))); omega)
    ((concat_at0 _ _ n).trans (v30_at loc n)) ((concat_at1 _ _ n).trans (v31_at loc n))

theorem v47_at : val_main_v47 (F := Ideal) g loc (ix2 n f) = g (ix3 (cellF (loc (ix2 n (0 : Fin 2)))) (cellS (loc (ix2 n (1 : Fin 2)))) f) := by
  unfold val_main_v47 val_main_v46
  exact gather_at g _ n f _ _ (by have := cellN_le (loc (ix2 n (0 : Fin 2))); omega) (by have := cellN_le (loc (ix2 n (1 : Fin 2))); omega)
    ((concat_at0 _ _ n).trans (v44_at loc n)) ((concat_at1 _ _ n).trans (v45_at loc n))

theorem v61_at : val_main_v61 (F := Ideal) g loc (ix2 n f) = g (ix3 (cellS (loc (ix2 n (0 : Fin 2)))) (cellF (loc (ix2 n (1 : Fin 2)))) f) := by
  unfold val_main_v61 val_main_v60
  exact gather_at g _ n f _ _ (by have := cellN_le (loc (ix2 n (0 : Fin 2))); omega) (by have := cellN_le (loc (ix2 n (1 : Fin 2))); omega)
    ((concat_at0 _ _ n).trans (v58_at loc n)) ((concat_at1 _ _ n).trans (v59_at loc n))

theorem v75_at : val_main_v75 (F := Ideal) g loc (ix2 n f) = g (ix3 (cellS (loc (ix2 n (0 : Fin 2)))) (cellS (loc (ix2 n (1 : Fin 2)))) f) := by
  unfold val_main_v75 val_main_v74
  exact gather_at g _ n f _ _ (by have := cellN_le (loc (ix2 n (0 : Fin 2))); omega) (by have := cellN_le (loc (ix2 n (1 : Fin 2))); omega)
    ((concat_at0 _ _ n).trans (v72_at loc n)) ((concat_at1 _ _ n).trans (v73_at loc n))

/-! The eight weights, each column laid along the four features. -/

theorem v78_at : val_main_v78 (F := Ideal) loc (ix2 n f) = 1 - frac (loc (ix2 n (0 : Fin 2))) := by
  rw [val_main_v78_apply, show idx_main_v78 (ix2 n f) = ix2 n (0 : Fin 1) from eq_ix2 _, val_main_v77_apply,
    val_main_v76_apply, val_main_cst_apply, ofBits_one, v16_at]
  rfl

theorem v82_at : val_main_v82 (F := Ideal) loc (ix2 n f) = 1 - frac (loc (ix2 n (1 : Fin 2))) := by
  rw [val_main_v82_apply, show idx_main_v82 (ix2 n f) = ix2 n (0 : Fin 1) from eq_ix2 _, val_main_v81_apply,
    val_main_v80_apply, val_main_cst_21_apply, ofBits_one, v19_at]
  rfl

theorem v86_at : val_main_v86 (F := Ideal) loc (ix2 n f) = 1 - frac (loc (ix2 n (0 : Fin 2))) := by
  rw [val_main_v86_apply, show idx_main_v86 (ix2 n f) = ix2 n (0 : Fin 1) from eq_ix2 _, val_main_v85_apply,
    val_main_v84_apply, val_main_cst_22_apply, ofBits_one, v16_at]
  rfl

theorem v95_at : val_main_v95 (F := Ideal) loc (ix2 n f) = 1 - frac (loc (ix2 n (1 : Fin 2))) := by
  rw [val_main_v95_apply, show idx_main_v95 (ix2 n f) = ix2 n (0 : Fin 1) from eq_ix2 _, val_main_v94_apply,
    val_main_v93_apply, val_main_cst_23_apply, ofBits_one, v19_at]
  rfl

theorem v88_at : val_main_v88 (F := Ideal) loc (ix2 n f) = frac (loc (ix2 n (1 : Fin 2))) := by
  rw [val_main_v88_apply, show idx_main_v88 (ix2 n f) = ix2 n (0 : Fin 1) from eq_ix2 _, v19_at]

theorem v91_at : val_main_v91 (F := Ideal) loc (ix2 n f) = frac (loc (ix2 n (0 : Fin 2))) := by
  rw [val_main_v91_apply, show idx_main_v91 (ix2 n f) = ix2 n (0 : Fin 1) from eq_ix2 _, v16_at]

theorem v98_at : val_main_v98 (F := Ideal) loc (ix2 n f) = frac (loc (ix2 n (0 : Fin 2))) := by
  rw [val_main_v98_apply, show idx_main_v98 (ix2 n f) = ix2 n (0 : Fin 1) from eq_ix2 _, v16_at]

theorem v100_at : val_main_v100 (F := Ideal) loc (ix2 n f) = frac (loc (ix2 n (1 : Fin 2))) := by
  rw [val_main_v100_apply, show idx_main_v100 (ix2 n f) = ix2 n (0 : Fin 1) from eq_ix2 _, v19_at]

end Stages

/-- The reference at `(n, f)` is the four-corner sum of the grid's feature `f` at the point's coordinates. -/
theorem ref_eq (g : FVec Ideal S512x512x4 .f32) (loc : FVec Ideal S8388608x2 .f32) :
    Cert.ReferenceIdeal.Read.val_main_v102 (F := Ideal) g loc = Cert.Bilinear.G g loc := by
  funext i
  obtain ⟨n, f, rfl⟩ : ∃ (n : Fin 8388608) (f : Fin 4), i = ix2 n f := ⟨i 0, i 1, eq_ix2 i⟩
  rw [val_main_v102_apply, val_main_v97_apply, val_main_v90_apply, val_main_v83_apply, val_main_v79_apply,
    val_main_v89_apply, val_main_v87_apply, val_main_v96_apply, val_main_v92_apply, val_main_v101_apply,
    val_main_v99_apply, v33_at, v47_at, v61_at, v75_at, v78_at, v82_at, v86_at, v88_at, v91_at, v95_at, v98_at, v100_at]
  rfl

end Cert.ReferenceIdeal.Point

end
-- ==== Proof.lean ====
/-
  The certificate: a Pallas kernel that interpolates a 512 × 512 grid of 4-vectors bilinearly at 8388608 points
  — building, per point, one weight row along each grid axis with at most two non-zero entries, contracting the
  grid with the first on the matrix unit and with the second by a lane sum — against the jnp reference that
  gathers the four corner vectors and blends them.

  At the ideal instance both are functions of the two argument arrays. The kernel's result array is the double sum
  `kform` at every (point, feature) (Proof/KernelPoint.lean for one point of a block, Proof/KernelFinal.lean for
  the whole array); the reference's is the four-corner sum `bilin` (Proof/RefPoint.lean). The clamped cell of a
  coordinate lies in `[0, 510]` whatever the coordinate, so the two weight entries never leave the grid and never
  coincide, and the double sum collapses to four terms; with finite inputs (Proof/Finite.lean) those four terms
  regroup into the reference's by distributivity (Proof/Laws.lean). The three frames are the generated ones (the
  reference's is its generated run with the result dropped); the idealization rewrote nothing, so `preserves` is
  trivial.
-/
import proofs.«108483_j72816875536993_1_alg».proof.Defs
import proofs.«108483_j72816875536993_1_alg».proof.Proof.Gen.Kernel
import proofs.«108483_j72816875536993_1_alg».proof.Proof.Gen.Kernel.Skeleton
import proofs.«108483_j72816875536993_1_alg».proof.Proof.Gen.Kernel.Launch
import proofs.«108483_j72816875536993_1_alg».proof.Proof.Gen.Kernel.Points
import proofs.«108483_j72816875536993_1_alg».proof.Proof.Gen.Kernel.Frame
import proofs.«108483_j72816875536993_1_alg».proof.Proof.Gen.KernelIdeal
import proofs.«108483_j72816875536993_1_alg».proof.Proof.Gen.KernelIdeal.Skeleton
import proofs.«108483_j72816875536993_1_alg».proof.Proof.Gen.KernelIdeal.Launch
import proofs.«108483_j72816875536993_1_alg».proof.Proof.Gen.KernelIdeal.Points
import proofs.«108483_j72816875536993_1_alg».proof.Proof.Gen.KernelIdeal.Frame
import proofs.«108483_j72816875536993_1_alg».proof.Proof.Gen.ReferenceIdeal
import proofs.«108483_j72816875536993_1_alg».proof.Proof.Gen.Pre_finite_inputs
import proofs.«108483_j72816875536993_1_alg».proof.Proof.Gen.KernelIdeal.Value
import proofs.«108483_j72816875536993_1_alg».proof.Proof.Gen.ReferenceIdeal.Run
import proofs.«108483_j72816875536993_1_alg».proof.Proof.Gen.ReferenceIdeal.Read
import proofs.«108483_j72816875536993_1_alg».proof.Proof.Laws
import proofs.«108483_j72816875536993_1_alg».proof.Proof.Finite
import proofs.«108483_j72816875536993_1_alg».proof.Proof.KernelFinal
import proofs.«108483_j72816875536993_1_alg».proof.Proof.RefPoint
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the double sum `kform` of the argument arrays at every (point, feature): the kernel by
    its run, the reference because its four-corner sum is that double sum when the inputs are finite. -/
theorem algebraic : Cert.algebraic_KernelIdeal_ReferenceIdeal := by
  intro m ρ m' ρ' hpre hagree
  refine ⟨fun c => Cert.KernelIdeal.Final.KG m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, (hagree c).1, (hagree c).2, Cert.ReferenceIdeal.Point.ref_eq]
  obtain ⟨hg, hl⟩ := Cert.Bilinear.Finite.finite_of_pre _ _ (hpre c)
  funext i
  obtain ⟨n, f, rfl⟩ : ∃ (n : Fin 8388608) (f : Fin 4), i = ix2 n f := ⟨i 0, i 1, eq_ix2 i⟩
  show Cert.Bilinear.G _ _ (ix2 n f) = Cert.KernelIdeal.Final.KG m c (ix2 n f)
  rw [Cert.KernelIdeal.Final.KG_apply]
  unfold Cert.Bilinear.G Cert.Bilinear.Gat
  exact (Cert.Bilinear.kform_eq_bilin _ _ _ (hl _) (hl _) (fun a b => hg _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
